-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024x1024 .f32) (main_arg9 : FVec F S1024x1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S1024x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 21
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S4096x1024.size a
  hwx0_11 : ∀ i : grid0.Coords, EltTy.bits .f32 = 32 ∨ (Rect.block (s := S4096x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.GruCell.lean ====
/-
  The recurrent cell as mathematics, with no program in sight.

  A batch of `n` rows carries an input `x` and a state `h`, each row a vector of 1024 extended reals.
  For a pair of square matrices `Wa`, `Wb` and a bias `β` the AFFINE PRE-ACTIVATION of a row `p` at
  column `q` is
      (∑ₖ a p k · Wa k q) + (∑ₖ b p k · Wb k q) + β q,
  the two sums added first and the bias last. The update gate `z` and the reset gate `r` are the
  logistic function `1 / (1 + e⁻ˢ)` of such a pre-activation of `(x, h)`; the candidate state is the
  hyperbolic tangent of the pre-activation of `(x, r ⊙ h)`; and the next state is
      z ⊙ h + (1 − z) ⊙ candidate.
  Everything is written over curried functions of literal `Fin` arguments, so that a row of the result is
  visibly a function of the SAME row of `x` and `h` and of nothing else of them (`cell_rows`): the
  fact that lets a batch be cut into blocks of rows and each block be computed by itself.
-/
import Idealize.ShloMosaic.PureOps.Ideal
import Idealize.ShloMosaic.Lib.ValueIdx

noncomputable section

namespace Cert.Gru

open Idealize.ShloMosaic

variable {n : Nat}

/-- Row `p` of `a` against column `q` of `W`: the sum over the 1024 shared coordinates. -/
def rowDot (a : Fin n → Fin 1024 → EReal) (W : Fin 1024 → Fin 1024 → EReal) (p : Fin n) (q : Fin 1024) : EReal :=
  ∑ k : Fin 1024, a p k * W k q

/-- The affine pre-activation of a gate: both products summed, then the bias. -/
def preact (a b : Fin n → Fin 1024 → EReal) (Wa Wb : Fin 1024 → Fin 1024 → EReal) (β : Fin 1024 → EReal)
    (p : Fin n) (q : Fin 1024) : EReal :=
  rowDot a Wa p q + rowDot b Wb p q + β q

/-- A logistic gate of input and state. -/
def gate (x h : Fin n → Fin 1024 → EReal) (Wx Wh : Fin 1024 → Fin 1024 → EReal) (β : Fin 1024 → EReal)
    (p : Fin n) (q : Fin 1024) : EReal :=
  Ideal.logistic (preact x h Wx Wh β p q)

/-- The candidate state: the state enters its product only after the reset gate has scaled it, entry by entry. -/
def candidate (x h : Fin n → Fin 1024 → EReal) (Wrx Wrh : Fin 1024 → Fin 1024 → EReal) (βr : Fin 1024 → EReal)
    (Wcx Wch : Fin 1024 → Fin 1024 → EReal) (βc : Fin 1024 → EReal) (p : Fin n) (q : Fin 1024) : EReal :=
  Ideal.tanh (preact x (fun p' k => gate x h Wrx Wrh βr p' k * h p' k) Wcx Wch βc p q)

/-- The next state: the update gate's mix of the old state and the candidate. -/
def cell (x h : Fin n → Fin 1024 → EReal) (Wzx Wzh : Fin 1024 → Fin 1024 → EReal) (βz : Fin 1024 → EReal)
    (Wrx Wrh : Fin 1024 → Fin 1024 → EReal) (βr : Fin 1024 → EReal)
    (Wcx Wch : Fin 1024 → Fin 1024 → EReal) (βc : Fin 1024 → EReal) (p : Fin n) (q : Fin 1024) : EReal :=
  gate x h Wzx Wzh βz p q * h p q + (1 - gate x h Wzx Wzh βz p q) * candidate x h Wrx Wrh βr Wcx Wch βc p q

/-- A row of the next state is the cell of that row alone: selecting rows `f p` of the batch before the cell
    is selecting them after it. -/
theorem cell_rows {n' : Nat} (f : Fin n' → Fin n) (x h : Fin n → Fin 1024 → EReal)
    (Wzx Wzh : Fin 1024 → Fin 1024 → EReal) (βz : Fin 1024 → EReal)
    (Wrx Wrh : Fin 1024 → Fin 1024 → EReal) (βr : Fin 1024 → EReal)
    (Wcx Wch : Fin 1024 → Fin 1024 → EReal) (βc : Fin 1024 → EReal) (p : Fin n') (q : Fin 1024) :
    cell (fun p' k => x (f p') k) (fun p' k => h (f p') k) Wzx Wzh βz Wrx Wrh βr Wcx Wch βc p q
      = cell x h Wzx Wzh βz Wrx Wrh βr Wcx Wch βc (f p) q := rfl

/-- A two-axis array read by its pair of coordinates. -/
abbrev curry2 {n0 n1 : Nat} (a : (⟨2, ![n0, n1]⟩ : Shape).Idx → EReal) : Fin n0 → Fin n1 → EReal :=
  fun p k => a (ValueIdx.ix2 p k)

/-- A one-axis array read by its coordinate. -/
abbrev curry1 {n0 : Nat} (b : (⟨1, ![n0]⟩ : Shape).Idx → EReal) : Fin n0 → EReal :=
  fun q => b (ValueIdx.ix1 q)

/-- The next state of a batch of `n` rows as ONE array of the argument arrays, index by index. -/
def cellArr (X H : (⟨2, ![n, 1024]⟩ : Shape).Idx → EReal)
    (Wzx Wzh : (⟨2, ![1024, 1024]⟩ : Shape).Idx → EReal) (bz : (⟨1, ![1024]⟩ : Shape).Idx → EReal)
    (Wrx Wrh : (⟨2, ![1024, 1024]⟩ : Shape).Idx → EReal) (br : (⟨1, ![1024]⟩ : Shape).Idx → EReal)
    (Wcx Wch : (⟨2, ![1024, 1024]⟩ : Shape).Idx → EReal) (bc : (⟨1, ![1024]⟩ : Shape).Idx → EReal) :
    (⟨2, ![n, 1024]⟩ : Shape).Idx → EReal :=
  fun i => cell (curry2 X) (curry2 H) (curry2 Wzx) (curry2 Wzh) (curry1 bz) (curry2 Wrx) (curry2 Wrh) (curry1 br)
    (curry2 Wcx) (curry2 Wch) (curry1 bc) (i 0) (i 1)

theorem cellArr_ix2 (X H : (⟨2, ![n, 1024]⟩ : Shape).Idx → EReal)
    (Wzx Wzh : (⟨2, ![1024, 1024]⟩ : Shape).Idx → EReal) (bz : (⟨1, ![1024]⟩ : Shape).Idx → EReal)
    (Wrx Wrh : (⟨2, ![1024, 1024]⟩ : Shape).Idx → EReal) (br : (⟨1, ![1024]⟩ : Shape).Idx → EReal)
    (Wcx Wch : (⟨2, ![1024, 1024]⟩ : Shape).Idx → EReal) (bc : (⟨1, ![1024]⟩ : Shape).Idx → EReal)
    (p : Fin n) (q : Fin 1024) :
    cellArr X H Wzx Wzh bz Wrx Wrh br Wcx Wch bc (ValueIdx.ix2 p q)
      = cell (curry2 X) (curry2 H) (curry2 Wzx) (curry2 Wzh) (curry1 bz) (curry2 Wrx) (curry2 Wrh) (curry1 br)
          (curry2 Wcx) (curry2 Wch) (curry1 bc) p q := rfl

/-- The single-precision pattern of one denotes the real number one. -/
theorem one_f32 : Ideal.ofBits .f32 0x3F800000#32 = 1 := by
  simp [Ideal.ofBits, Ideal.ieee, -EReal.coe_mul]; norm_num

/-- The logistic function spelt with the host's negation, exponential, sum and quotient, the ones written as
    the single-precision pattern: the same function. -/
theorem logistic_spelt (s : EReal) :
    Ideal.div (Ideal.ofBits .f32 0x3F800000#32) (Ideal.ofBits .f32 0x3F800000#32 + Ideal.exp (-s)) = Ideal.logistic s := by
  rw [one_f32]; rfl

end Cert.Gru

end
-- ==== Proof.RefCell.lean ====
/-
  The reference computes the cell. Its program is read one operation at a time: each of its six
  matrix products is, at an index `(p, q)`, the sum over `k` of the left operand at `(p, k)` times the right at
  `(k, q)`; a bias is broadcast along the rows, so at `(p, q)` it is the bias at `q`; the logistic function is
  spelt `1 / (1 + e⁻ˢ)`. Put together, the update gate, the reset gate and the candidate state are the
  specification's, and so is the result.
-/
import proofs.«158733_j78795470012673_1_alg».proof.Proof.Gen.ReferenceIdeal.Read
import proofs.«158733_j78795470012673_1_alg».proof.Proof.GruCell

noncomputable section

namespace Cert.ReferenceIdeal.CellValue

open Cert.ReferenceIdeal Cert.ReferenceIdeal.Read Idealize.ShloMosaic Idealize.ShloMosaic.ValueIdx Cert.Gru

/-- The left operand of a product is read in the output's row, at the summation coordinate. -/
theorem lidx_ix2 (p : Fin 4096) (q k : Fin 1024) : lidx_main_v0 (ix2 p q) k = ix2 p k :=
  funext fun a => Fin.ext (by match a with | ⟨0, _⟩ => rfl | ⟨1, _⟩ => rfl)

/-- The right operand is read at the summation coordinate, in the output's column. -/
theorem ridx_ix2 (p : Fin 4096) (q k : Fin 1024) : ridx_main_v0 (ix2 p q) k = ix2 k q :=
  funext fun a => Fin.ext (by match a with | ⟨0, _⟩ => rfl | ⟨1, _⟩ => rfl)

/-- A bias broadcast over the rows is read at the output's column. -/
theorem bias_ix (p : Fin 4096) (q : Fin 1024) : idx_main_v3 (idx_main_v4 (ix2 p q)) = ix1 q :=
  funext fun a => Fin.ext (by match a with | ⟨0, _⟩ => rfl)

/-- A product read at `(p, q)` is row `p` against column `q`. -/
theorem dot_read (A : FVec Ideal S4096x1024 .f32) (W : FVec Ideal S1024x1024 .f32) (p : Fin 4096) (q : Fin 1024) :
    (∑ k : Fin 1024, A (lidx_main_v0 (ix2 p q) k) * W (ridx_main_v0 (ix2 p q) k)) = rowDot (curry2 A) (curry2 W) p q :=
  Finset.sum_congr rfl fun k _ => by rw [lidx_ix2, ridx_ix2]

/-- The update gate. -/
theorem update_eq (X H : FVec Ideal S4096x1024 .f32) (Wx Wh : FVec Ideal S1024x1024 .f32) (b : FVec Ideal S1024 .f32)
    (p : Fin 4096) (q : Fin 1024) :
    val_main_v11 (F := Ideal) X H Wx Wh b (ix2 p q) = gate (curry2 X) (curry2 H) (curry2 Wx) (curry2 Wh) (curry1 b) p q := by
  rw [val_main_v11_apply, val_main_v10_apply, val_main_cst_0_apply, val_main_v9_apply, val_main_v8_apply,
    val_main_cst_apply, val_main_v7_apply, val_main_v6_apply, val_main_v5_apply, val_main_v2_apply,
    val_main_v0_apply, val_main_v1_apply, val_main_v4_apply, val_main_v3_apply]
  refine (logistic_spelt _).trans (congrArg Ideal.logistic ?_)
  exact congrArg₂ (· + ·) (congrArg₂ (· + ·) (dot_read X Wx p q) (dot_read H Wh p q)) (congrArg b (bias_ix p q))

/-- The reset gate. -/
theorem reset_eq (X H : FVec Ideal S4096x1024 .f32) (Wx Wh : FVec Ideal S1024x1024 .f32) (b : FVec Ideal S1024 .f32)
    (p : Fin 4096) (q : Fin 1024) :
    val_main_v23 (F := Ideal) X H Wx Wh b (ix2 p q) = gate (curry2 X) (curry2 H) (curry2 Wx) (curry2 Wh) (curry1 b) p q := by
  rw [val_main_v23_apply, val_main_v22_apply, val_main_cst_2_apply, val_main_v21_apply, val_main_v20_apply,
    val_main_cst_1_apply, val_main_v19_apply, val_main_v18_apply, val_main_v17_apply, val_main_v14_apply,
    val_main_v12_apply, val_main_v13_apply, val_main_v16_apply, val_main_v15_apply]
  refine (logistic_spelt _).trans (congrArg Ideal.logistic ?_)
  exact congrArg₂ (· + ·) (congrArg₂ (· + ·) (dot_read X Wx p q) (dot_read H Wh p q)) (congrArg b (bias_ix p q))

/-- The state as the candidate's product sees it: scaled by the reset gate, entry by entry. -/
theorem scaled_eq (X H : FVec Ideal S4096x1024 .f32) (Wx Wh : FVec Ideal S1024x1024 .f32) (b : FVec Ideal S1024 .f32) :
    curry2 (val_main_v25 (F := Ideal) X H Wx Wh b)
      = fun p k => gate (curry2 X) (curry2 H) (curry2 Wx) (curry2 Wh) (curry1 b) p k * curry2 H p k := by
  funext p k
  show val_main_v25 (F := Ideal) X H Wx Wh b (ix2 p k) = _
  rw [val_main_v25_apply, reset_eq]
  rfl

/-- The candidate state. -/
theorem candidate_eq (X H : FVec Ideal S4096x1024 .f32) (Wrx Wrh : FVec Ideal S1024x1024 .f32) (br : FVec Ideal S1024 .f32)
    (Wcx Wch : FVec Ideal S1024x1024 .f32) (bc : FVec Ideal S1024 .f32) (p : Fin 4096) (q : Fin 1024) :
    val_main_v31 (F := Ideal) X H Wrx Wrh br Wcx Wch bc (ix2 p q)
      = candidate (curry2 X) (curry2 H) (curry2 Wrx) (curry2 Wrh) (curry1 br) (curry2 Wcx) (curry2 Wch) (curry1 bc) p q := by
  rw [val_main_v31_apply, val_main_v30_apply, val_main_v27_apply, val_main_v24_apply, val_main_v26_apply,
    val_main_v29_apply, val_main_v28_apply]
  refine congrArg Ideal.tanh ?_
  unfold preact
  rw [← scaled_eq]
  exact congrArg₂ (· + ·) (congrArg₂ (· + ·) (dot_read X Wcx p q) (dot_read _ Wch p q)) (congrArg bc (bias_ix p q))

/-- The reference's second result is the cell of its arguments. -/
theorem result_eq (X H : FVec Ideal S4096x1024 .f32) (Wzx Wzh : FVec Ideal S1024x1024 .f32) (bz : FVec Ideal S1024 .f32)
    (Wrx Wrh : FVec Ideal S1024x1024 .f32) (br : FVec Ideal S1024 .f32)
    (Wcx Wch : FVec Ideal S1024x1024 .f32) (bc : FVec Ideal S1024 .f32) :
    val_main_v36 (F := Ideal) X H Wzx Wzh bz Wrx Wrh br Wcx Wch bc = cellArr X H Wzx Wzh bz Wrx Wrh br Wcx Wch bc := by
  funext i
  obtain ⟨p, q, rfl⟩ : ∃ (p : Fin 4096) (q : Fin 1024), i = ix2 p q := ⟨i 0, i 1, eq_ix2 i⟩
  rw [cellArr_ix2, val_main_v36_apply, val_main_v32_apply, val_main_v35_apply, val_main_v34_apply, val_main_v33_apply,
    val_main_cst_3_apply, candidate_eq, update_eq]
  unfold cell
  rw [← one_f32]
  rfl

end Cert.ReferenceIdeal.CellValue

end
-- ==== Proof.KernelBlock.lean ====
/-
  What the kernel body computes on one block of rows. The body holds a block of 256 rows of the input and of the
  state, all six weight matrices and the three biases (each bias as a single row). Each of its six matrix
  products accumulates into zero, so at an index `(p, q)` of the block it is row `p` of the left operand against
  column `q` of the right one; narrowing an operand to half precision changes nothing over the extended reals; a
  bias row broadcast down the block is read at the column. Hence the update and reset gates of the block are the
  specification's gates of the block's rows, the product for the candidate sees the state scaled by the reset gate,
  and the stored block is the cell of the block's rows.
-/
import proofs.«158733_j78795470012673_1_alg».proof.Proof.Gen.KernelIdeal.Frame
import proofs.«158733_j78795470012673_1_alg».proof.Proof.GruCell
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.TcCoe Idealize.ShloMosaic.ValueIdx Cert.Gru

/-! ## A matrix product of the body, read at an index -/

theorem lhs_row (i : S256x1024.Idx) (κ : dot_S256x1024_S1024x1024_S256x1024_1_0_0_1_n_n.contr.Idx) :
    (dot_S256x1024_S1024x1024_S256x1024_1_0_0_1_n_n.lhsIdx i κ 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_sum (i : S256x1024.Idx) (κ : dot_S256x1024_S1024x1024_S256x1024_1_0_0_1_n_n.contr.Idx) :
    (dot_S256x1024_S1024x1024_S256x1024_1_0_0_1_n_n.lhsIdx i κ 1).val = (κ ⟨0, by decide⟩).val :=
  dot_S256x1024_S1024x1024_S256x1024_1_0_0_1_n_n.lhsIdx_val_of_single rfl i κ
theorem rhs_sum (i : S256x1024.Idx) (κ : dot_S256x1024_S1024x1024_S256x1024_1_0_0_1_n_n.contr.Idx) :
    (dot_S256x1024_S1024x1024_S256x1024_1_0_0_1_n_n.rhsIdx i κ 0).val = (κ ⟨0, by decide⟩).val :=
  dot_S256x1024_S1024x1024_S256x1024_1_0_0_1_n_n.rhsIdx_val_of_single rfl i κ
theorem rhs_col (i : S256x1024.Idx) (κ : dot_S256x1024_S1024x1024_S256x1024_1_0_0_1_n_n.contr.Idx) :
    (dot_S256x1024_S1024x1024_S256x1024_1_0_0_1_n_n.rhsIdx i κ 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A product into the zero accumulator, at `(p, q)`: row `p` against column `q`. -/
theorem matmul_read {φ₁ φ₂ : FTy} (a : FVec Ideal S256x1024 φ₁) (w : FVec Ideal S1024x1024 φ₂) (p : Fin 256) (q : Fin 1024) :
    matmul dot_S256x1024_S1024x1024_S256x1024_1_0_0_1_n_n none a w (constant S256x1024 .f32 0x00000000#32) (ix2 p q)
      = rowDot (curry2 a) (curry2 w) p q := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_row _ _
    | ⟨1, _⟩ => exact (lhs_sum _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_sum _ _).trans hk
    | ⟨1, _⟩ => exact rhs_col _ _)
  rw [el, er]

/-- The body's product of a block narrowed to half precision with a weight matrix: the narrowing and the
    shape cast to the same shape are identities. -/
theorem product_read (a : FVec Ideal S256x1024 .f32) (w : FVec Ideal S1024x1024 .bf16) (p : Fin 256) (q : Fin 1024) :
    matmul dot_S256x1024_S1024x1024_S256x1024_1_0_0_1_n_n none (truncf .bf16 a bitsLt_bf16_f32)
        (shapeCast S1024x1024 w shapeCasts_S1024x1024_S1024x1024) (constant S256x1024 .f32 0x00000000#32) (ix2 p q)
      = rowDot (curry2 a) (curry2 w) p q := by
  rw [shapeCast_self]
  exact matmul_read (truncf .bf16 a bitsLt_bf16_f32) w p q

/-- A bias row broadcast down the block, at `(p, q)`: the bias at column `q`. -/
theorem bias_read (b : FVec Ideal S1x1024 .f32) (p : Fin 256) (q : Fin 1024) :
    broadcastTo S256x1024 (shapeCast S1x1024 b shapeCasts_S1x1024_S1x1024) broadcasts_S1x1024_S256x1024 (ix2 p q)
      = curry2 b 0 q := by
  rw [shapeCast_self]
  exact broadcastTo_apply b _ (ix2 p q) (ix2 0 q) (fun a => match a with
    | ⟨0, _⟩ => by show 0 = if (1 : Nat) = 1 then 0 else _; rw [if_pos rfl]
    | ⟨1, _⟩ => by show q.val = if (1024 : Nat) = 1 then 0 else q.val; rw [if_neg (by decide)])

/-! ## The gates and the stored block -/

/-- The update gate of the block. -/
theorem update_read (x h : Vec Ideal S256x1024 .f32) (wx wh : Vec Ideal S1024x1024 .bf16) (b : Vec Ideal S1x1024 .f32)
    (p : Fin 256) (q : Fin 1024) :
    k0_pay4 x h wx wh b (ix2 p q) = gate (curry2 x) (curry2 h) (curry2 wx) (curry2 wh) (curry2 b 0) p q := by
  unfold k0_pay4 k0_pay2 k0_pay3 gate preact
  exact congrArg Ideal.logistic (congrArg₂ (· + ·) (congrArg₂ (· + ·) (product_read x wx p q) (product_read h wh p q)) (bias_read b p q))

/-- The state scaled by the reset gate, as the candidate's product takes it. -/
theorem scaled_read (x h : Vec Ideal S256x1024 .f32) (wx wh : Vec Ideal S1024x1024 .bf16) (b : Vec Ideal S1x1024 .f32)
    (p : Fin 256) (k : Fin 1024) :
    k0_pay5 x h wx wh b (ix2 p k) = gate (curry2 x) (curry2 h) (curry2 wx) (curry2 wh) (curry2 b 0) p k * curry2 h p k := by
  unfold k0_pay5 k0_pay2 k0_pay3 gate preact
  exact congrArg (· * h (ix2 p k)) (congrArg Ideal.logistic (congrArg₂ (· + ·) (congrArg₂ (· + ·) (product_read x wx p k) (product_read h wh p k)) (bias_read b p k)))

/-- The input's share of the candidate's pre-activation. -/
theorem input_read (x : Vec Ideal S256x1024 .f32) (w : Vec Ideal S1024x1024 .bf16) (p : Fin 256) (q : Fin 1024) :
    k0_pay6 x w (ix2 p q) = rowDot (curry2 x) (curry2 w) p q := by
  unfold k0_pay6 k0_pay2
  exact product_read x w p q

/-- The stored value from the body's intermediate values: the mix of the state and the candidate. -/
theorem mix_read (h : Vec Ideal S256x1024 .f32) (z : FVec Ideal S256x1024 .f32) (s : FVec Ideal S256x1024 .bf16)
    (u : FVec Ideal S256x1024 .f32) (w : Vec Ideal S1024x1024 .bf16) (b : Vec Ideal S1x1024 .f32) (p : Fin 256) (q : Fin 1024) :
    k0_pay1 h z s u w b (ix2 p q)
      = z (ix2 p q) * h (ix2 p q) + (1 - z (ix2 p q)) * Ideal.tanh (u (ix2 p q) + rowDot (curry2 s) (curry2 w) p q + curry2 b 0 q) := by
  unfold k0_pay1
  rw [← one_f32]
  exact congrArg (fun e => z (ix2 p q) * h (ix2 p q) + (Ideal.ofBits .f32 0x3F800000#32 - z (ix2 p q)) * Ideal.tanh e)
    (congrArg₂ (· + ·) (congrArg (u (ix2 p q) + ·) (by
      rw [shapeCast_self]; exact matmul_read s w p q)) (bias_read b p q))

theorem origin : (![0, 0] : Fin 2 → Nat) = fun _ => 0 := funext fun a => by fin_cases a <;> rfl

/-- THE BLOCK: what the body leaves in the output's buffer, from blocks of rows of the input and the state, is the
    cell of those rows. -/
theorem block_eq (x h : Vec Ideal S256x1024 .f32) (wzx wzh : Vec Ideal S1024x1024 .bf16) (bz : Vec Ideal S1x1024 .f32)
    (wrx wrh : Vec Ideal S1024x1024 .bf16) (br : Vec Ideal S1x1024 .f32)
    (wcx wch : Vec Ideal S1024x1024 .bf16) (bc : Vec Ideal S1x1024 .f32) (p : Fin 256) (q : Fin 1024) :
    out0_11 x h wzx wzh bz wrx wrh br wcx wch bc (ix2 p q)
      = cell (curry2 x) (curry2 h) (curry2 wzx) (curry2 wzh) (curry2 bz 0) (curry2 wrx) (curry2 wrh) (curry2 br 0)
          (curry2 wcx) (curry2 wch) (curry2 bc 0) p q := by
  unfold out0_11
  rw [View.canon_unit_zero origin]
  simp only [View.ld_unit_zero (S := S256x1024) origin, View.ld_unit_zero (S := S1024x1024) origin, View.ld_unit_zero (S := S1x1024) origin]
  rw [mix_read, update_read, input_read]
  unfold cell candidate preact
  rw [show curry2 (k0_pay5 x h wrx wrh br) = fun p' k => gate (curry2 x) (curry2 h) (curry2 wrx) (curry2 wrh) (curry2 br 0) p' k * curry2 h p' k from
    funext fun p' => funext fun k => scaled_read x h wrx wrh br p' k]

end Cert.KernelIdeal.BlockValue

end
-- ==== Proof.KernelArray.lean ====
/-
  From blocks of rows to the whole array. The grid has sixteen points; point `t` is given rows
  `256·t … 256·t + 255` of the input and of the state, every weight matrix whole (narrowed to half precision by
  the host before the launch, which over the extended reals changes nothing) and every bias as one row (the host's
  reshape of the bias vector), and it writes back rows `256·t … 256·t + 255` of the result. By the block lemma what it
  writes is the cell of its rows, and a row of the cell depends on that row alone, so what point `t` writes is block
  `t` of the cell of the whole batch. The sixteen blocks cover the array: row `r` lies in block `r / 256`. Hence the
  result array ends holding the cell of the launch contents.
-/
import proofs.«158733_j78795470012673_1_alg».proof.Proof.Gen.KernelIdeal.Value
import proofs.«158733_j78795470012673_1_alg».proof.Proof.KernelBlock
import Idealize.ShloMosaic.Lib.StableHlo.Run

noncomputable section

namespace Cert.KernelIdeal.ArrayValue

open Cert.KernelIdeal Cert.KernelIdeal.Gen Idealize.ShloMosaic Idealize.ShloMosaic.TcCoe Idealize.ShloMosaic.ValueIdx Idealize.SL.Sem Cert.Gru
open Idealize.ShloMosaic.StableHlo
open Idealize.ShloMosaic.Pipeline (Dat)

variable (m : (ℓ : Loc nD τ sig) → Buf (Elt Ideal) ℓ) (ρ : Dev nD → PrngReg)

/-- The next state of the whole batch, as one array of the launch contents. -/
def nextState (c : Dev nD) : S4096x1024.Idx → EReal :=
  cellArr (n := 4096) (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Row `p` of block `t`, as a row of the batch. -/
def row (t : Fin cfg0.N) (p : Fin 256) : Fin 4096 :=
  ⟨t.val * 256 + p.val, by have := t.isLt; have h : cfg0.N = 16 := N_0; have := p.isLt; omega⟩

/-- The printed index maps, decided over the sixteen points: the input, the state and the result move one block of
    rows per point; every weight matrix and every bias row stays at the origin. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_11.index t (0 : Fin 2) = t.val ∧ win0_11.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## The blocks of the input and the state -/

/-- The input's block at point `t` is rows `256·t …` of the input. -/
theorem x_read (c : Dev nD) (t : Fin cfg0.N) (p : Fin 256) (k : Fin 1024) :
    iblk m c 0 t (ix2 p k) = m ((c : Thread nD τ).loc main_arg0) (ix2 (row t p) k) := by
  show V m c main_arg0 (((cfg0.win 0).blk t).view.emb (ix2 p k)) = _
  rw [V_main_arg0]
  refine congrArg (m ((c : Thread nD τ).loc main_arg0)) ?_
  obtain ⟨⟨e0, e1⟩, -⟩ := idx_facts t
  funext a; apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega

/-- The state's block at point `t` is rows `256·t …` of the state. -/
theorem h_read (c : Dev nD) (t : Fin cfg0.N) (p : Fin 256) (k : Fin 1024) :
    iblk m c 1 t (ix2 p k) = m ((c : Thread nD τ).loc main_arg1) (ix2 (row t p) k) := by
  show V m c main_arg1 (((cfg0.win 1).blk t).view.emb (ix2 p k)) = _
  rw [V_main_arg1]
  refine congrArg (m ((c : Thread nD τ).loc main_arg1)) ?_
  obtain ⟨-, ⟨e0, e1⟩, -⟩ := idx_facts t
  funext a; apply Fin.ext
  match a with
  | ⟨0, _⟩ => show win0_1.index t (0 : Fin 2) * 256 + 1 * p.val = t.val * 256 + p.val; omega
  | ⟨1, _⟩ => show win0_1.index t (1 : Fin 2) * 1024 + 1 * k.val = k.val; omega

/-- The result's block at point `t` is rows `256·t …` of the result array. -/
theorem out_index (t : Fin cfg0.N) (p : Fin 256) (q : Fin 1024) :
    ((cfg0.win 11).blk t).view.emb (ix2 p q) = ix2 (row t p) q := by
  obtain ⟨-, -, ⟨e0, e1⟩, -⟩ := idx_facts t
  funext a; apply Fin.ext
  match a with
  | ⟨0, _⟩ => show win0_11.index t (0 : Fin 2) * 256 + 1 * p.val = t.val * 256 + p.val; omega
  | ⟨1, _⟩ => show win0_11.index t (1 : Fin 2) * 1024 + 1 * q.val = q.val; omega

/-! ## The weight matrices and the bias rows as the region finds them -/

/-- The host narrows weight matrix `main_arg2` to half precision before the launch: over the extended reals, the matrix itself. -/
theorem V_wzx (c : Dev nD) :
    (V m c main_v0 : S1024x1024.Idx → EReal) = (m ((c : Thread nD τ).loc main_arg2) : S1024x1024.Idx → EReal) := by
  dsimp only [Gen.V, Gen.hostOps0]; after_results; rfl

/-- Window 2's block, at every point, is that matrix whole. -/
theorem wzx_read (c : Dev nD) (t : Fin cfg0.N) (k q : Fin 1024) :
    (iblk m c 2 t (ix2 k q) : EReal) = m ((c : Thread nD τ).loc main_arg2) (ix2 k q) := by
  show V m c main_v0 (((cfg0.win 2).blk t).view.emb (ix2 k q)) = _
  rw [V_wzx]
  refine congrArg (m ((c : Thread nD τ).loc main_arg2)) ?_
  obtain ⟨-, -, -, ⟨e0, e1⟩, -⟩ := idx_facts t
  funext a; apply Fin.ext
  match a with
  | ⟨0, _⟩ => show win0_2.index t (0 : Fin 2) * 1024 + 1 * k.val = k.val; omega
  | ⟨1, _⟩ => show win0_2.index t (1 : Fin 2) * 1024 + 1 * q.val = q.val; omega

/-- The host narrows weight matrix `main_arg3` to half precision before the launch: over the extended reals, the matrix itself. -/
theorem V_wzh (c : Dev nD) :
    (V m c main_v1 : S1024x1024.Idx → EReal) = (m ((c : Thread nD τ).loc main_arg3) : S1024x1024.Idx → EReal) := by
  dsimp only [Gen.V, Gen.hostOps0]; after_results; rfl

/-- Window 3's block, at every point, is that matrix whole. -/
theorem wzh_read (c : Dev nD) (t : Fin cfg0.N) (k q : Fin 1024) :
    (iblk m c 3 t (ix2 k q) : EReal) = m ((c : Thread nD τ).loc main_arg3) (ix2 k q) := by
  show V m c main_v1 (((cfg0.win 3).blk t).view.emb (ix2 k q)) = _
  rw [V_wzh]
  refine congrArg (m ((c : Thread nD τ).loc main_arg3)) ?_
  obtain ⟨-, -, -, -, ⟨e0, e1⟩, -⟩ := idx_facts t
  funext a; apply Fin.ext
  match a with
  | ⟨0, _⟩ => show win0_3.index t (0 : Fin 2) * 1024 + 1 * k.val = k.val; omega
  | ⟨1, _⟩ => show win0_3.index t (1 : Fin 2) * 1024 + 1 * q.val = q.val; omega

/-- The host narrows weight matrix `main_arg5` to half precision before the launch: over the extended reals, the matrix itself. -/
theorem V_wrx (c : Dev nD) :
    (V m c main_v2 : S1024x1024.Idx → EReal) = (m ((c : Thread nD τ).loc main_arg5) : S1024x1024.Idx → EReal) := by
  dsimp only [Gen.V, Gen.hostOps0]; after_results; rfl

/-- Window 5's block, at every point, is that matrix whole. -/
theorem wrx_read (c : Dev nD) (t : Fin cfg0.N) (k q : Fin 1024) :
    (iblk m c 5 t (ix2 k q) : EReal) = m ((c : Thread nD τ).loc main_arg5) (ix2 k q) := by
  show V m c main_v2 (((cfg0.win 5).blk t).view.emb (ix2 k q)) = _
  rw [V_wrx]
  refine congrArg (m ((c : Thread nD τ).loc main_arg5)) ?_
  obtain ⟨-, -, -, -, -, -, ⟨e0, e1⟩, -⟩ := idx_facts t
  funext a; apply Fin.ext
  match a with
  | ⟨0, _⟩ => show win0_5.index t (0 : Fin 2) * 1024 + 1 * k.val = k.val; omega
  | ⟨1, _⟩ => show win0_5.index t (1 : Fin 2) * 1024 + 1 * q.val = q.val; omega

/-- The host narrows weight matrix `main_arg6` to half precision before the launch: over the extended reals, the matrix itself. -/
theorem V_wrh (c : Dev nD) :
    (V m c main_v3 : S1024x1024.Idx → EReal) = (m ((c : Thread nD τ).loc main_arg6) : S1024x1024.Idx → EReal) := by
  dsimp only [Gen.V, Gen.hostOps0]; after_results; rfl

/-- Window 6's block, at every point, is that matrix whole. -/
theorem wrh_read (c : Dev nD) (t : Fin cfg0.N) (k q : Fin 1024) :
    (iblk m c 6 t (ix2 k q) : EReal) = m ((c : Thread nD τ).loc main_arg6) (ix2 k q) := by
  show V m c main_v3 (((cfg0.win 6).blk t).view.emb (ix2 k q)) = _
  rw [V_wrh]
  refine congrArg (m ((c : Thread nD τ).loc main_arg6)) ?_
  obtain ⟨-, -, -, -, -, -, -, ⟨e0, e1⟩, -⟩ := idx_facts t
  funext a; apply Fin.ext
  match a with
  | ⟨0, _⟩ => show win0_6.index t (0 : Fin 2) * 1024 + 1 * k.val = k.val; omega
  | ⟨1, _⟩ => show win0_6.index t (1 : Fin 2) * 1024 + 1 * q.val = q.val; omega

/-- The host narrows weight matrix `main_arg8` to half precision before the launch: over the extended reals, the matrix itself. -/
theorem V_wcx (c : Dev nD) :
    (V m c main_v4 : S1024x1024.Idx → EReal) = (m ((c : Thread nD τ).loc main_arg8) : S1024x1024.Idx → EReal) := by
  dsimp only [Gen.V, Gen.hostOps0]; after_results; rfl

/-- Window 8's block, at every point, is that matrix whole. -/
theorem wcx_read (c : Dev nD) (t : Fin cfg0.N) (k q : Fin 1024) :
    (iblk m c 8 t (ix2 k q) : EReal) = m ((c : Thread nD τ).loc main_arg8) (ix2 k q) := by
  show V m c main_v4 (((cfg0.win 8).blk t).view.emb (ix2 k q)) = _
  rw [V_wcx]
  refine congrArg (m ((c : Thread nD τ).loc main_arg8)) ?_
  obtain ⟨-, -, -, -, -, -, -, -, -, ⟨e0, e1⟩, -⟩ := idx_facts t
  funext a; apply Fin.ext
  match a with
  | ⟨0, _⟩ => show win0_8.index t (0 : Fin 2) * 1024 + 1 * k.val = k.val; omega
  | ⟨1, _⟩ => show win0_8.index t (1 : Fin 2) * 1024 + 1 * q.val = q.val; omega

/-- The host narrows weight matrix `main_arg9` to half precision before the launch: over the extended reals, the matrix itself. -/
theorem V_wch (c : Dev nD) :
    (V m c main_v5 : S1024x1024.Idx → EReal) = (m ((c : Thread nD τ).loc main_arg9) : S1024x1024.Idx → EReal) := by
  dsimp only [Gen.V, Gen.hostOps0]; after_results; rfl

/-- Window 9's block, at every point, is that matrix whole. -/
theorem wch_read (c : Dev nD) (t : Fin cfg0.N) (k q : Fin 1024) :
    (iblk m c 9 t (ix2 k q) : EReal) = m ((c : Thread nD τ).loc main_arg9) (ix2 k q) := by
  show V m c main_v5 (((cfg0.win 9).blk t).view.emb (ix2 k q)) = _
  rw [V_wch]
  refine congrArg (m ((c : Thread nD τ).loc main_arg9)) ?_
  obtain ⟨-, -, -, -, -, -, -, -, -, -, ⟨e0, e1⟩, -⟩ := idx_facts t
  funext a; apply Fin.ext
  match a with
  | ⟨0, _⟩ => show win0_9.index t (0 : Fin 2) * 1024 + 1 * k.val = k.val; omega
  | ⟨1, _⟩ => show win0_9.index t (1 : Fin 2) * 1024 + 1 * q.val = q.val; omega

/-- The host reshapes bias vector `main_arg4` into one row before the launch. -/
theorem V_bz (c : Dev nD) :
    (V m c main_v6 : S1x1024.Idx → EReal) = shapeCast S1x1024 (m ((c : Thread nD τ).loc main_arg4)) shapeCasts_S1024_S1x1024 := by
  dsimp only [Gen.V, Gen.hostOps0]; after_results; rfl

/-- Window 4's block, at every point, is that row: at column `q` the bias at `q`. -/
theorem bz_read (c : Dev nD) (t : Fin cfg0.N) (q : Fin 1024) :
    (iblk m c 4 t (ix2 (0 : Fin 1) q) : EReal) = m ((c : Thread nD τ).loc main_arg4) (ix1 q) := by
  show V m c main_v6 (((cfg0.win 4).blk t).view.emb (ix2 (0 : Fin 1) q)) = _
  have he : ((cfg0.win 4).blk t).view.emb (ix2 (0 : Fin 1) q) = ix2 (0 : Fin 1) q := by
    obtain ⟨-, -, -, -, -, ⟨e0, e1⟩, -⟩ := idx_facts t
    funext a; apply Fin.ext
    match a with
    | ⟨0, _⟩ => show win0_4.index t (0 : Fin 2) * 1 + 1 * 0 = 0; omega
    | ⟨1, _⟩ => show win0_4.index t (1 : Fin 2) * 1024 + 1 * q.val = q.val; omega
  rw [he, V_bz]
  exact shapeCast_apply (m ((c : Thread nD τ).loc main_arg4)) shapeCasts_S1024_S1x1024 (ix2 (0 : Fin 1) q) (ix1 q) (by
    show (S1024.rowMajor (ix1 q)).val = (S1x1024.rowMajor (ix2 (0 : Fin 1) q)).val
    rw [Shape.rowMajor_val_one, Shape.rowMajor_val_two]
    show q.val = 0 * 1024 + q.val
    omega)

/-- The host reshapes bias vector `main_arg7` into one row before the launch. -/
theorem V_br (c : Dev nD) :
    (V m c main_v7 : S1x1024.Idx → EReal) = shapeCast S1x1024 (m ((c : Thread nD τ).loc main_arg7)) shapeCasts_S1024_S1x1024 := by
  dsimp only [Gen.V, Gen.hostOps0]; after_results; rfl

/-- Window 7's block, at every point, is that row: at column `q` the bias at `q`. -/
theorem br_read (c : Dev nD) (t : Fin cfg0.N) (q : Fin 1024) :
    (iblk m c 7 t (ix2 (0 : Fin 1) q) : EReal) = m ((c : Thread nD τ).loc main_arg7) (ix1 q) := by
  show V m c main_v7 (((cfg0.win 7).blk t).view.emb (ix2 (0 : Fin 1) q)) = _
  have he : ((cfg0.win 7).blk t).view.emb (ix2 (0 : Fin 1) q) = ix2 (0 : Fin 1) q := by
    obtain ⟨-, -, -, -, -, -, -, -, ⟨e0, e1⟩, -⟩ := idx_facts t
    funext a; apply Fin.ext
    match a with
    | ⟨0, _⟩ => show win0_7.index t (0 : Fin 2) * 1 + 1 * 0 = 0; omega
    | ⟨1, _⟩ => show win0_7.index t (1 : Fin 2) * 1024 + 1 * q.val = q.val; omega
  rw [he, V_br]
  exact shapeCast_apply (m ((c : Thread nD τ).loc main_arg7)) shapeCasts_S1024_S1x1024 (ix2 (0 : Fin 1) q) (ix1 q) (by
    show (S1024.rowMajor (ix1 q)).val = (S1x1024.rowMajor (ix2 (0 : Fin 1) q)).val
    rw [Shape.rowMajor_val_one, Shape.rowMajor_val_two]
    show q.val = 0 * 1024 + q.val
    omega)

/-- The host reshapes bias vector `main_arg10` into one row before the launch. -/
theorem V_bc (c : Dev nD) :
    (V m c main_v8 : S1x1024.Idx → EReal) = shapeCast S1x1024 (m ((c : Thread nD τ).loc main_arg10)) shapeCasts_S1024_S1x1024 := by
  dsimp only [Gen.V, Gen.hostOps0]; after_results; rfl

/-- Window 10's block, at every point, is that row: at column `q` the bias at `q`. -/
theorem bc_read (c : Dev nD) (t : Fin cfg0.N) (q : Fin 1024) :
    (iblk m c 10 t (ix2 (0 : Fin 1) q) : EReal) = m ((c : Thread nD τ).loc main_arg10) (ix1 q) := by
  show V m c main_v8 (((cfg0.win 10).blk t).view.emb (ix2 (0 : Fin 1) q)) = _
  have he : ((cfg0.win 10).blk t).view.emb (ix2 (0 : Fin 1) q) = ix2 (0 : Fin 1) q := by
    obtain ⟨-, -, -, -, -, -, -, -, -, -, -, ⟨e0, e1⟩⟩ := idx_facts t
    funext a; apply Fin.ext
    match a with
    | ⟨0, _⟩ => show win0_10.index t (0 : Fin 2) * 1 + 1 * 0 = 0; omega
    | ⟨1, _⟩ => show win0_10.index t (1 : Fin 2) * 1024 + 1 * q.val = q.val; omega
  rw [he, V_bc]
  exact shapeCast_apply (m ((c : Thread nD τ).loc main_arg10)) shapeCasts_S1024_S1x1024 (ix2 (0 : Fin 1) q) (ix1 q) (by
    show (S1024.rowMajor (ix1 q)).val = (S1x1024.rowMajor (ix2 (0 : Fin 1) q)).val
    rw [Shape.rowMajor_val_one, Shape.rowMajor_val_two]
    show q.val = 0 * 1024 + q.val
    omega)

/-! ## What a point writes back, the cover, the array -/

/-- WHAT POINT `t` WRITES BACK is block `t` of the next state of the whole batch. -/
theorem flushed_eq (c : Dev nD) (t : Fin cfg0.N) :
    (dats m 0 c).flushed 11 t = ((cfg0.win 11).blk t).view.read (Elt Ideal) (nextState m c) := by
  rw [Value.flushed11]
  funext y
  obtain ⟨p, q, rfl⟩ : ∃ (p : Fin 256) (q : Fin 1024), y = ix2 p q := ⟨y 0, y 1, @eq_ix2 256 1024 y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
    = nextState m c (((cfg0.win 11).blk t).view.emb (ix2 p q))
  rw [out_index]
  refine (BlockValue.block_eq (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  unfold nextState
  rw [cellArr_ix2, ← cell_rows (row t)]
  have hx : curry2 (iblk m c 0 t) = fun p' k => curry2 (m ((c : Thread nD τ).loc main_arg0)) (row t p') k := funext fun p' => funext fun k => x_read m c t p' k
  have hh : curry2 (iblk m c 1 t) = fun p' k => curry2 (m ((c : Thread nD τ).loc main_arg1)) (row t p') k := funext fun p' => funext fun k => h_read m c t p' k
  have hwzx : curry2 (iblk m c 2 t) = curry2 (m ((c : Thread nD τ).loc main_arg2)) := funext fun k => funext fun q' => wzx_read m c t k q'
  have hwzh : curry2 (iblk m c 3 t) = curry2 (m ((c : Thread nD τ).loc main_arg3)) := funext fun k => funext fun q' => wzh_read m c t k q'
  have hwrx : curry2 (iblk m c 5 t) = curry2 (m ((c : Thread nD τ).loc main_arg5)) := funext fun k => funext fun q' => wrx_read m c t k q'
  have hwrh : curry2 (iblk m c 6 t) = curry2 (m ((c : Thread nD τ).loc main_arg6)) := funext fun k => funext fun q' => wrh_read m c t k q'
  have hwcx : curry2 (iblk m c 8 t) = curry2 (m ((c : Thread nD τ).loc main_arg8)) := funext fun k => funext fun q' => wcx_read m c t k q'
  have hwch : curry2 (iblk m c 9 t) = curry2 (m ((c : Thread nD τ).loc main_arg9)) := funext fun k => funext fun q' => wch_read m c t k q'
  have hbz : curry2 (iblk m c 4 t) 0 = curry1 (m ((c : Thread nD τ).loc main_arg4)) := funext fun q' => bz_read m c t q'
  have hbr : curry2 (iblk m c 7 t) 0 = curry1 (m ((c : Thread nD τ).loc main_arg7)) := funext fun q' => br_read m c t q'
  have hbc : curry2 (iblk m c 10 t) 0 = curry1 (m ((c : Thread nD τ).loc main_arg10)) := funext fun q' => bc_read m c t q'
  rw [hx, hh, hwzx, hwzh, hbz, hwrx, hwrh, hbr, hwcx, hwch, hbc]

/-- An index of the result array is in point `t`'s block iff each coordinate is in the block's range on its axis. -/
theorem mem_blk (t : Fin cfg0.N) (i : S4096x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v9).slice (win0_11.rect t)).set ↔ _
  rw [View.set_slice_whole, Rect.mem_set_unit]
  exact Iff.rfl

/-- THE COVER: row `r` of the result lies in the block of point `r / 256`. -/
theorem covered (i : S4096x1024.Idx) :
    ∃ t : Fin cfg0.N, (cfg0.win 11).flush t = true ∧ i ∈ ((cfg0.win 11).blk t).view.set := by
  have hi0 : (i 0).val < 4096 := (i 0).isLt
  have hi1 : (i 1).val < 1024 := (i 1).isLt
  obtain ⟨t, ht⟩ : ∃ t : Fin cfg0.N, t.val = (i 0).val / 256 :=
    ⟨⟨(i 0).val / 256, by have h : cfg0.N = 16 := N_0; omega⟩, rfl⟩
  obtain ⟨-, -, ⟨e0, e1⟩, -⟩ := idx_facts t
  refine ⟨t, flush0_11 t, ?_⟩
  rw [mem_blk]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

/-- THE ARRAY after the run is the next state of the whole batch. -/
theorem final (c : Dev nD) : (dats m 0 c).arrAt 11 cfg0.N = nextState m c :=
  (dats m 0 c).arrAt_eq_of_cover 11 (nextState m c) (fun t _ => flushed_eq m c t) covered

/-- The kernel's run, its result array named: the next state of the launch contents; the arguments unchanged. -/
theorem run : θ_run defs (onTc (τ := τ) (main (F := Ideal))) ⟨m, fun _ => 0, ρ⟩ fun r => ∀ c : Dev nD,
      r.2.mem ((c : Thread nD τ).loc main_v9) = nextState m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayValue

end
-- ==== Proof.lean ====
/- A gated recurrent cell, computed block by block, against the same cell written with whole-array operations.

   For a batch of 4096 rows with input `x` and state `h` (1024 entries a row), six square weight matrices and
   three bias vectors, both programs return the old state and the next state
       z ⊙ h + (1 − z) ⊙ tanh(x·Wc + (r ⊙ h)·Wc' + bc),   z = σ(x·Wz + h·Wz' + bz),   r = σ(x·Wr + h·Wr' + br),
   `σ` the logistic function. The kernel narrows the matrix operands to half precision, which over the extended
   reals is the identity, and computes sixteen blocks of 256 rows; the reference spells `σ(s)` as `1 / (1 + e⁻ˢ)`.
   No algebraic law is needed to join them beyond reading each matrix product as the same sum at an index, so the
   finiteness of the inputs is never used: Proof/GruCell.lean states the cell and that a row of it depends on that row
   alone; Proof/RefCell.lean reads the reference's program as the cell; Proof/KernelBlock.lean reads the kernel body on
   a block as the cell of the block; Proof/KernelArray.lean assembles the sixteen blocks into the array. The
   kernel's idealization rewrote no operation, so it is the kernel's own text read over the extended reals. -/
import proofs.«158733_j78795470012673_1_alg».proof.Defs
import proofs.«158733_j78795470012673_1_alg».proof.Proof.Gen.Kernel
import proofs.«158733_j78795470012673_1_alg».proof.Proof.Gen.Kernel.Skeleton
import proofs.«158733_j78795470012673_1_alg».proof.Proof.Gen.Kernel.Launch
import proofs.«158733_j78795470012673_1_alg».proof.Proof.Gen.Kernel.Points
import proofs.«158733_j78795470012673_1_alg».proof.Proof.Gen.Kernel.Frame
import proofs.«158733_j78795470012673_1_alg».proof.Proof.Gen.KernelIdeal
import proofs.«158733_j78795470012673_1_alg».proof.Proof.Gen.KernelIdeal.Skeleton
import proofs.«158733_j78795470012673_1_alg».proof.Proof.Gen.KernelIdeal.Launch
import proofs.«158733_j78795470012673_1_alg».proof.Proof.Gen.KernelIdeal.Points
import proofs.«158733_j78795470012673_1_alg».proof.Proof.Gen.KernelIdeal.Frame
import proofs.«158733_j78795470012673_1_alg».proof.Proof.Gen.ReferenceIdeal
import proofs.«158733_j78795470012673_1_alg».proof.Proof.Gen.KernelIdeal.Value
import proofs.«158733_j78795470012673_1_alg».proof.Proof.Gen.ReferenceIdeal.Run
import proofs.«158733_j78795470012673_1_alg».proof.Proof.Gen.ReferenceIdeal.Read
import proofs.«158733_j78795470012673_1_alg».proof.Proof.Gen.Pre_finite_inputs
import proofs.«158733_j78795470012673_1_alg».proof.Proof.GruCell
import proofs.«158733_j78795470012673_1_alg».proof.Proof.RefCell
import proofs.«158733_j78795470012673_1_alg».proof.Proof.KernelBlock
import proofs.«158733_j78795470012673_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of whole-array operations: its run, with the results' values dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs return the old state untouched and the next state, the cell of the arguments: the kernel's result
    array by the sixteen blocks, the reference's by reading its operations; the arguments agree, so the cells do. -/
theorem algebraic : Cert.algebraic_KernelIdeal_ReferenceIdeal := by
  intro m ρ m' ρ' _ hagree
  refine ⟨fun c => m ((c : Thread Cert.KernelIdeal.nD Cert.KernelIdeal.τ).loc Cert.KernelIdeal.main_arg1),
    fun c => Cert.KernelIdeal.ArrayValue.nextState m c, ?_, ?_⟩
  · exact (θ_run Cert.KernelIdeal.defs _ _).mono (fun r h c => ⟨(h c).2.2.1, (h c).1, (h c).2⟩)
      (Cert.KernelIdeal.ArrayValue.run m ρ)
  · refine (θ_run Cert.ReferenceIdeal.defs _ _).mono (fun r h c => ⟨(h c).1.trans (hagree c).2.1, (h c).2.1.trans ?_, (h c).2.2⟩)
      (Cert.ReferenceIdeal.Value.run (F := Ideal) m' ρ')
    rw [Cert.ReferenceIdeal.Read.val_main_v36_eq, Cert.ReferenceIdeal.CellValue.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
